-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : FVec F S16384x4096 .f32) (main_arg2 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S1x16384 : Shape := ⟨2, ![1, 16384]⟩
abbrev S8192x16384 : Shape := ⟨2, ![8192, 16384]⟩
abbrev S1024x1024 : Shape := ⟨2, ![1024, 1024]⟩
abbrev S1x1024 : Shape := ⟨2, ![1, 1024]⟩
abbrev S4x2048x16384 : Shape := ⟨3, ![4, 2048, 16384]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S8192x4096, .f32⟩
  | .hbm, ⟨4, _⟩ => ⟨S1x16384, .f32⟩
  | .hbm, ⟨5, _⟩ => ⟨S8192x16384, .f32⟩
  | .hbm, ⟨6, _⟩ => ⟨S4x2048x16384, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  shapeCasts_S16384_S1x16384 : S16384.ShapeCasts S1x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x16384_S4x2048x16384 : S8192x16384.ShapeCasts S4x2048x16384
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .f32 = 32 ∨ (Rect.block (s := S16384x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x16384.size a
  hwx0_3 : ∀ i : grid0.Coords, EltTy.bits .f32 = 32 ∨ (Rect.block (s := S8192x16384) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S4x2048x16384 : Shape := ⟨3, ![4, 2048, 16384]⟩
abbrev S1x1x16384 : Shape := ⟨3, ![1, 1, 16384]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S4x2048x16384, .f32⟩
  | .hbm, ⟨4, _⟩ => ⟨S1x1x16384, .f32⟩
  | .hbm, ⟨5, _⟩ => ⟨S4x2048x16384, .f32⟩
  | .hbm, ⟨6, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Pieces.lean ====
/-
  What one grid point leaves behind, case by case, as terms over the blocks it was handed.

  The body keeps a running total in a scratch block carried from point to point. Write
  `trip x w acc` for one trip's update: acc + x·wᵀ, the product contracted over the block's 1024
  columns. Then
    · at the first point of a run of four (k = 0) the scratch is first set to the zero block and the
      trip is applied to it: the scratch ends at `trip x w 0`, whatever it held before;
    · at the two middle points (k = 1, 2) the scratch ends at `trip x w acc`, `acc` what the point
      before left;
    · at the last point (k = 3) the scratch ends at `trip x w acc` again, and the output block is
      that total with the bias row added to every row.
  All three hold for any float instance: they only read back what the stores wrote.
-/
import proofs.«120054_j11081015624230_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (a3 : Memref sig .tc .vmem S1024x1024 .f32) (h3 : a3.IsWhole)
  (a4 : Memref sig .tc .vmem S1024x1024 .f32) (h4 : a4.IsWhole)
  (a5 : Memref sig .tc .vmem S1x1024 .f32) (h5 : a5.IsWhole)
  (a6 : Memref sig .tc .vmem S1024x1024 .f32) (h6 : a6.IsWhole)
  (a7 : Memref sig .tc .vmem S1024x1024 .f32) (h7 : a7.IsWhole)

/-- First point of a run (k = 0): the scratch is reset, then one trip is added to the zero block. -/
theorem scratch_first (hc0 : cond0_0 i) (hc1 : ¬cond0_1 i)
    (x : Vec F S1024x1024 .f32) (w : Vec F S1024x1024 .f32) (b : Vec F S1x1024 .f32) :
    sout0_A_0 c i a3 h3 a4 h4 a5 h5 a6 h6 a7 h7 hc0 hc1 x w b = k0_pay2 x w (k0_pay1 (F := F)) := by
  unfold sout0_A_0
  rw [View.read_writes_eq_canon _ _ _ (scover0_A_0 c i a3 h3 a4 h4 a5 h5 a6 h6 a7 h7 hc0 hc1 x w b)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle point (k = 1, 2): one more trip on top of what the point before left. -/
theorem scratch_mid (hc0 : ¬cond0_0 i) (hc1 : ¬cond0_1 i)
    (x : Vec F S1024x1024 .f32) (w : Vec F S1024x1024 .f32) (b : Vec F S1x1024 .f32) (acc : Vec F S1024x1024 .f32) :
    sout0_B_0 c i a3 h3 a4 h4 a5 h5 a6 h6 a7 h7 hc0 hc1 x w b acc = k0_pay2 x w acc := by
  unfold sout0_B_0
  rw [View.read_writes_eq_canon _ _ _ (scover0_B_0 c i a3 h3 a4 h4 a5 h5 a6 h6 a7 h7 hc0 hc1 x w b acc)]
  unfold kernelRun0_B
  dsimp only
  sl_unfold_words
  rw [View.canon_unit_zero hz]
  simp only [View.readAt_eq_ld, h3.read_unread, h4.read_unread, h7.read_unread, View.ld_unit_zero (S := S1024x1024) hz]

/-- The last point (k = 3): the scratch takes its fourth trip, -/
theorem scratch_last (hc0 : ¬cond0_0 i) (hc1 : cond0_1 i)
    (x : Vec F S1024x1024 .f32) (w : Vec F S1024x1024 .f32) (b : Vec F S1x1024 .f32) (acc : Vec F S1024x1024 .f32) :
    sout0_C_0 c i a3 h3 a4 h4 a5 h5 a6 h6 a7 h7 hc0 hc1 x w b acc = k0_pay2 x w acc := by
  unfold sout0_C_0
  rw [View.read_writes_eq_canon _ _ _ (scover0_C_0 c i a3 h3 a4 h4 a5 h5 a6 h6 a7 h7 hc0 hc1 x w b acc)]
  unfold kernelRun0_C
  dsimp only
  sl_unfold_words
  rw [View.canon_unit_zero hz]
  simp only [View.readAt_eq_ld, h3.read_unread, h4.read_unread, h7.read_unread, View.ld_unit_zero (S := S1024x1024) hz]

/-- and the output block is that total plus the bias row. -/
theorem out_last (hc0 : ¬cond0_0 i) (hc1 : cond0_1 i)
    (x : Vec F S1024x1024 .f32) (w : Vec F S1024x1024 .f32) (b : Vec F S1x1024 .f32) (acc : Vec F S1024x1024 .f32) :
    out0_C_3 c i a3 h3 a4 h4 a5 h5 a6 h6 a7 h7 hc0 hc1 x w b acc = k0_pay3 (k0_pay2 x w acc) b := by
  unfold out0_C_3
  rw [View.read_writes_eq_canon _ _ _ (cover0_C_3 c i a3 h3 a4 h4 a5 h5 a6 h6 a7 h7 hc0 hc1 x w b acc)]
  unfold kernelRun0_C
  dsimp only
  sl_unfold_words
  rw [View.canon_unit_zero hz]
  simp only [View.readAt_eq_ld, h3.read_unread, h4.read_unread, h5.read_unread, h7.read_unread,
    View.ld_unit_zero (S := S1024x1024) hz, View.ld_unit_zero (S := S1x1024) hz,
    View.readCov_unit_zero (S := S1024x1024) _ hz]

end Cert.KernelIdeal.Pieces

end
-- ==== Proof.Chain.lean ====
/-
  The four points of one run, chained.

  The grid is 8 × 16 × 4 with the last axis fastest, so the points 4·s, 4·s + 1, 4·s + 2, 4·s + 3
  (s < 128) are the four trips k = 0, 1, 2, 3 over one output block. The first of them resets the
  running total, so nothing of an earlier run survives, and what the scratch holds after trip k is
  the k-fold nest
      tot₀ = trip x₀ w₀ 0,   tot₁ = trip x₁ w₁ tot₀,   tot₂ = trip x₂ w₂ tot₁,   tot₃ = trip x₃ w₃ tot₂
  of the blocks of x and W the four points were handed; the last point stores tot₃ plus the bias
  row. No induction over the 512 points is needed: each run is read off its own four points.
-/
import proofs.«120054_j11081015624230_1_alg».proof.Proof.Pieces

noncomputable section

open Idealize.ShloMosaic Idealize.ShloMosaic.TcCoe Idealize.SL.Sem

namespace Cert.KernelIdeal.Chain

open Cert.KernelIdeal Cert.KernelIdeal.Gen

variable {F : FTy → Type} [FloatOps F]
variable (m : (ℓ : Loc nD τ sig) → Buf (Elt F) ℓ)

/-- Trip `k` of run `s`, as a grid point. -/
def pt (s : Fin 128) (k : Fin 4) : Fin cfg0.N :=
  ⟨4 * s.val + k.val, by rw [show cfg0.N = 512 from N_0]; have := s.isLt; have := k.isLt; omega⟩

theorem pt_val (s : Fin 128) (k : Fin 4) : (pt s k).val = 4 * s.val + k.val := rfl

/-- The blocks of x, of W and of the bias row a point is handed, at their literal shapes. -/
abbrev xblk (c : Dev nD) (t : Fin cfg0.N) : Vec F S1024x1024 .f32 := iblk m c 0 t
abbrev wblk (c : Dev nD) (t : Fin cfg0.N) : Vec F S1024x1024 .f32 := iblk m c 1 t
abbrev bblk (c : Dev nD) (t : Fin cfg0.N) : Vec F S1x1024 .f32 := iblk m c 2 t

/-- The running total after trips 0 … k of run `s`. -/
abbrev tot0 (c : Dev nD) (s : Fin 128) : Vec F S1024x1024 .f32 :=
  k0_pay2 (xblk m c (pt s 0)) (wblk m c (pt s 0)) (k0_pay1 (F := F))
abbrev tot1 (c : Dev nD) (s : Fin 128) : Vec F S1024x1024 .f32 :=
  k0_pay2 (xblk m c (pt s 1)) (wblk m c (pt s 1)) (tot0 m c s)
abbrev tot2 (c : Dev nD) (s : Fin 128) : Vec F S1024x1024 .f32 :=
  k0_pay2 (xblk m c (pt s 2)) (wblk m c (pt s 2)) (tot1 m c s)
abbrev tot3 (c : Dev nD) (s : Fin 128) : Vec F S1024x1024 .f32 :=
  k0_pay2 (xblk m c (pt s 3)) (wblk m c (pt s 3)) (tot2 m c s)

/-- The contents after a point depend on the point's number only. -/
theorem outsAt_congr (c : Dev nD) {n n' : ℕ} (e : n = n') (h : n < cfg0.N) (h' : n' < cfg0.N) :
    outsAt0 m c n h = outsAt0 m c n' h' := by
  subst e; rfl

theorem scratch0 (c : Dev nD) (s : Fin 128) : (outsAt0 m c (pt s 0).val (pt s 0).isLt).2 = tot0 m c s := by
  have h0 : (pt s 0).val % 4 = 0 := by rw [pt_val]; show (4 * s.val + 0) % 4 = 0; omega
  have h1 : ¬(pt s 0).val % 4 = 3 := by rw [pt_val]; show ¬(4 * s.val + 0) % 4 = 3; omega
  rw [outsAt0_A m c (pt s 0) h0 h1]
  dsimp only
  exact Pieces.scratch_first c (grid0.coords (pt s 0)) (ms0_0 (pt s 0)) (hs0_0 (pt s 0)) (ms0_1 (pt s 0)) (hs0_1 (pt s 0)) (ms0_2 (pt s 0)) (hs0_2 (pt s 0)) (ms0_3 (pt s 0)) (hs0_3 (pt s 0)) scM0_0 (Memref.isWhole_whole _) ((hcond0_0 (pt s 0)).mpr h0) (fun h => h1 ((hcond0_1 (pt s 0)).mp h)) (iblk m c 0 (pt s 0)) (iblk m c 1 (pt s 0)) (iblk m c 2 (pt s 0))

theorem scratch1 (c : Dev nD) (s : Fin 128) : (outsAt0 m c (pt s 1).val (pt s 1).isLt).2 = tot1 m c s := by
  have h0 : ¬(pt s 1).val % 4 = 0 := by rw [pt_val]; show ¬(4 * s.val + 1) % 4 = 0; omega
  have h1 : ¬(pt s 1).val % 4 = 3 := by rw [pt_val]; show ¬(4 * s.val + 1) % 4 = 3; omega
  have e : (outsAt0 m c ((pt s 1).val - 1) (Nat.lt_of_le_of_lt (Nat.sub_le _ _) (pt s 1).isLt)).2 = tot0 m c s :=
    (congrArg Prod.snd (outsAt_congr m c (show (pt s 1).val - 1 = (pt s 0).val by rw [pt_val, pt_val]; show 4 * s.val + 1 - 1 = 4 * s.val + 0; omega) _ (pt s 0).isLt)).trans (scratch0 m c s)
  rw [outsAt0_B m c (pt s 1) h0 h1]
  dsimp only
  exact (Pieces.scratch_mid c (grid0.coords (pt s 1)) (ms0_0 (pt s 1)) (hs0_0 (pt s 1)) (ms0_1 (pt s 1)) (hs0_1 (pt s 1)) (ms0_2 (pt s 1)) (hs0_2 (pt s 1)) (ms0_3 (pt s 1)) (hs0_3 (pt s 1)) scM0_0 (Memref.isWhole_whole _) (fun h => h0 ((hcond0_0 (pt s 1)).mp h)) (fun h => h1 ((hcond0_1 (pt s 1)).mp h)) (iblk m c 0 (pt s 1)) (iblk m c 1 (pt s 1)) (iblk m c 2 (pt s 1)) _).trans
    (congrArg (k0_pay2 (xblk m c (pt s 1)) (wblk m c (pt s 1))) e)

theorem scratch2 (c : Dev nD) (s : Fin 128) : (outsAt0 m c (pt s 2).val (pt s 2).isLt).2 = tot2 m c s := by
  have h0 : ¬(pt s 2).val % 4 = 0 := by rw [pt_val]; show ¬(4 * s.val + 2) % 4 = 0; omega
  have h1 : ¬(pt s 2).val % 4 = 3 := by rw [pt_val]; show ¬(4 * s.val + 2) % 4 = 3; omega
  have e : (outsAt0 m c ((pt s 2).val - 1) (Nat.lt_of_le_of_lt (Nat.sub_le _ _) (pt s 2).isLt)).2 = tot1 m c s :=
    (congrArg Prod.snd (outsAt_congr m c (show (pt s 2).val - 1 = (pt s 1).val by rw [pt_val, pt_val]; show 4 * s.val + 2 - 1 = 4 * s.val + 1; omega) _ (pt s 1).isLt)).trans (scratch1 m c s)
  rw [outsAt0_B m c (pt s 2) h0 h1]
  dsimp only
  exact (Pieces.scratch_mid c (grid0.coords (pt s 2)) (ms0_0 (pt s 2)) (hs0_0 (pt s 2)) (ms0_1 (pt s 2)) (hs0_1 (pt s 2)) (ms0_2 (pt s 2)) (hs0_2 (pt s 2)) (ms0_3 (pt s 2)) (hs0_3 (pt s 2)) scM0_0 (Memref.isWhole_whole _) (fun h => h0 ((hcond0_0 (pt s 2)).mp h)) (fun h => h1 ((hcond0_1 (pt s 2)).mp h)) (iblk m c 0 (pt s 2)) (iblk m c 1 (pt s 2)) (iblk m c 2 (pt s 2)) _).trans
    (congrArg (k0_pay2 (xblk m c (pt s 2)) (wblk m c (pt s 2))) e)

/-- What the last point of run `s` leaves in the output's staging buffer: the full total plus the bias row. -/
theorem out_total (c : Dev nD) (s : Fin 128) :
    (outsAt0 m c (pt s 3).val (pt s 3).isLt).1 = k0_pay3 (tot3 m c s) (bblk m c (pt s 3)) := by
  have h0 : ¬(pt s 3).val % 4 = 0 := by rw [pt_val]; show ¬(4 * s.val + 3) % 4 = 0; omega
  have h1 : (pt s 3).val % 4 = 3 := by rw [pt_val]; show (4 * s.val + 3) % 4 = 3; omega
  have e : (outsAt0 m c ((pt s 3).val - 1) (Nat.lt_of_le_of_lt (Nat.sub_le _ _) (pt s 3).isLt)).2 = tot2 m c s :=
    (congrArg Prod.snd (outsAt_congr m c (show (pt s 3).val - 1 = (pt s 2).val by rw [pt_val, pt_val]; show 4 * s.val + 3 - 1 = 4 * s.val + 2; omega) _ (pt s 2).isLt)).trans (scratch2 m c s)
  rw [outsAt0_C m c (pt s 3) h0 h1]
  dsimp only
  exact (Pieces.out_last c (grid0.coords (pt s 3)) (ms0_0 (pt s 3)) (hs0_0 (pt s 3)) (ms0_1 (pt s 3)) (hs0_1 (pt s 3)) (ms0_2 (pt s 3)) (hs0_2 (pt s 3)) (ms0_3 (pt s 3)) (hs0_3 (pt s 3)) scM0_0 (Memref.isWhole_whole _) (fun h => h0 ((hcond0_0 (pt s 3)).mp h)) ((hcond0_1 (pt s 3)).mpr h1) (iblk m c 0 (pt s 3)) (iblk m c 1 (pt s 3)) (iblk m c 2 (pt s 3)) _).trans
    (congrArg (fun a => k0_pay3 (k0_pay2 (xblk m c (pt s 3)) (wblk m c (pt s 3)) a) (bblk m c (pt s 3))) e)

end Cert.KernelIdeal.Chain

end
-- ==== Proof.Payload.lean ====
/-
  The body's three stored values read at one coordinate (p, q) of a 1024 × 1024 block, over the
  extended reals:
    · the reset stores the zero block:                         0;
    · one trip stores  acc(p, q) + ∑ₖ x(p, k) · w(q, k),  k over the block's 1024 columns — the
      rounding of both factors to bf16 before the product is the identity on extended reals, the
      matrix unit starts from a zero block, and the product contracts axis 1 of BOTH factors
      (x · wᵀ);
    · the last point stores  total(p, q) + bias(0, q): the bias row is broadcast down the rows.
-/
import proofs.«120054_j11081015624230_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen

/-! ## Where the product reads its two factors -/

/-- The left factor is read in the output's row … -/
theorem lhs_row (j : S1024x1024.Idx) (k : dot_S1024x1024_S1024x1024_S1024x1024_1_1_0_0_n_n.contr.Idx) :
    (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … at the contracted column; -/
theorem lhs_col (j : S1024x1024.Idx) (k : dot_S1024x1024_S1024x1024_S1024x1024_1_1_0_0_n_n.contr.Idx) :
    (dot_S1024x1024_S1024x1024_S1024x1024_1_1_0_0_n_n.lhsIdx j k 1).val = (k ⟨0, by decide⟩).val :=
  dot_S1024x1024_S1024x1024_S1024x1024_1_1_0_0_n_n.lhsIdx_val_of_single rfl j k
/-- the right factor in the row numbered by the output's COLUMN … -/
theorem rhs_row (j : S1024x1024.Idx) (k : dot_S1024x1024_S1024x1024_S1024x1024_1_1_0_0_n_n.contr.Idx) :
    (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … at the same contracted column. -/
theorem rhs_col (j : S1024x1024.Idx) (k : dot_S1024x1024_S1024x1024_S1024x1024_1_1_0_0_n_n.contr.Idx) :
    (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- The matrix unit's product into a zero block, at (p, q): ∑ₖ l(p, k) · r(q, k). -/
theorem product_apply (l r : FVec Ideal S1024x1024 .bf16) (p q : Fin 1024) :
    matmul dot_S1024x1024_S1024x1024_S1024x1024_1_1_0_0_n_n none l r (constant S1024x1024 .f32 0x00000000#32) (ix2 p q)
      = ∑ k : Fin 1024, l (ix2 p k) * r (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_row _ _
    | ⟨1, _⟩ => exact (lhs_col _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_row _ _
    | ⟨1, _⟩ => exact (rhs_col _ _).trans hk)
  rw [el, er]

/-! ## The three stored values -/

/-- The reset's block is zero everywhere. -/
theorem reset_apply (j : S1024x1024.Idx) : k0_pay1 (F := Ideal) j = 0 := by
  unfold k0_pay1
  rw [shapeCast_self]
  show Ideal.ofBits .f32 0x00000000#32 = 0
  exact Ideal.ofBits_zero_f32

/-- One trip: the running total plus this block's share of the contraction. -/
theorem trip_apply (x w acc : Vec Ideal S1024x1024 .f32) (p q : Fin 1024) :
    k0_pay2 (F := Ideal) x w acc (ix2 p q) = acc (ix2 p q) + ∑ k : Fin 1024, x (ix2 p k) * w (ix2 q k) := by
  unfold k0_pay2
  rw [shapeCast_self, shapeCast_self, addf_apply, product_apply]
  rfl

/-- The last point's output: the total plus the bias row's entry of the column. -/
theorem biased_apply (tot : Vec Ideal S1024x1024 .f32) (b : Vec Ideal S1x1024 .f32) (p q : Fin 1024) :
    k0_pay3 (F := Ideal) tot b (ix2 p q) = tot (ix2 p q) + b (ix2 0 q) := by
  unfold k0_pay3
  rw [shapeCast_self, addf_apply]
  rw [broadcastTo_apply b broadcasts_S1x1024_S1024x1024 (ix2 p q) (ix2 0 q) (fun a => by
    match a with
    | ⟨0, _⟩ => show (0 : ℕ) = if (1 : ℕ) = 1 then 0 else _; rw [if_pos rfl]
    | ⟨1, _⟩ => show q.val = if (1024 : ℕ) = 1 then 0 else q.val; rw [if_neg (by decide)])]

end Cert.KernelIdeal.Payload

end
-- ==== Proof.BlockSum.lean ====
/-
  A contraction over 4096 positions, met in four consecutive blocks of 1024.

  An accumulator that starts at zero and, trip after trip, adds the partial sum over one block of
  1024 consecutive positions ends, after the fourth trip, at
      (((0 + B₀) + B₁) + B₂) + B₃,      Bₖ = ∑ over the positions 1024·k … 1024·k + 1023.
  Every position of the axis lies in exactly one block (position d in block d / 1024 at offset
  d % 1024), so in any additive commutative monoid that chain is the sum over the whole axis:
  only associativity, commutativity and 0 + a = a are used, nothing about cancelling or
  distributing, hence nothing that fails at an infinite extended real.
-/
import Idealize.ShloMosaic.Lib.ValueIdx

open scoped BigOperators

namespace Cert.BlockSum

/-- Offset `kk` of block `k`, as a position of the whole axis: 1024·k + kk. -/
def pos (k : Fin 4) (kk : Fin 1024) : Fin 4096 :=
  ⟨1024 * k.val + kk.val, by have := k.isLt; have := kk.isLt; omega⟩

theorem pos_val (k : Fin 4) (kk : Fin 1024) : (pos k kk).val = 1024 * k.val + kk.val := rfl

/-- (block, offset) ↔ position: division with remainder by 1024. -/
def posEquiv : Fin 4 × Fin 1024 ≃ Fin 4096 where
  toFun p := pos p.1 p.2
  invFun d := (⟨d.val / 1024, by have := d.isLt; omega⟩, ⟨d.val % 1024, Nat.mod_lt _ (by decide)⟩)
  left_inv p := by
    rcases p with ⟨k, kk⟩
    have hk := k.isLt
    have hkk := kk.isLt
    refine Prod.ext (Fin.ext ?_) (Fin.ext ?_)
    · show (1024 * k.val + kk.val) / 1024 = k.val
      omega
    · show (1024 * k.val + kk.val) % 1024 = kk.val
      omega
  right_inv d := by
    refine Fin.ext ?_
    show 1024 * (d.val / 1024) + d.val % 1024 = d.val
    omega

/-- The sum over the axis is the zero-started chain of the four block sums, in block order. -/
theorem sum_blocks {M : Type*} [AddCommMonoid M] (g : Fin 4096 → M) :
    ∑ d, g d
      = (((0 + ∑ kk, g (pos 0 kk)) + ∑ kk, g (pos 1 kk)) + ∑ kk, g (pos 2 kk)) + ∑ kk, g (pos 3 kk) := by
  rw [← Equiv.sum_comp posEquiv g, Fintype.sum_prod_type, Fin.sum_univ_four, zero_add]
  rfl

end Cert.BlockSum
-- ==== Proof.Blocks.lean ====
/-
  From the blocks to the result array of the pallas_call.

  Point t = (i·16 + j)·4 + k of the grid is handed block (i, k) of the 8192 × 4096 operand X, block
  (j, k) of the 16384 × 4096 operand W and block (0, j) of the 1 × 16384 bias row, and at k = 3 writes
  block (i, j) of the 8192 × 16384 result. So entry (p, q) of what run s = i·16 + j writes back is, with
  r = 1024·i + p and o = 1024·j + q,
      (((0 + ∑ₖ X(r, k)W(o, k)) + ∑ₖ X(r, 1024+k)W(o, 1024+k)) + …) + … + B(0, o)
  — the zero-started chain of the four 1024-blocks of ∑_d X(r, d)·W(o, d), which is that sum. The 128
  written blocks tile the result, so the array ends at
      layer X W B (r, o) = ∑_{d<4096} X(r, d)·W(o, d) + B(0, o).
-/
import proofs.«120054_j11081015624230_1_alg».proof.Proof.Chain
import proofs.«120054_j11081015624230_1_alg».proof.Proof.Payload
import proofs.«120054_j11081015624230_1_alg».proof.Proof.BlockSum
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Chain Cert.BlockSum

variable (m : (ℓ : Loc nD τ sig) → Buf (Elt Ideal) ℓ)

/-- The three operand arrays as the region finds them. -/
abbrev xarr (c : Dev nD) : Vec Ideal S8192x4096 .f32 := V m c main_v0
abbrev warr (c : Dev nD) : Vec Ideal S16384x4096 .f32 := V m c main_arg1
abbrev barr (c : Dev nD) : Vec Ideal S1x16384 .f32 := V m c main_v1

/-- The layer on the flattened rows: ∑_d X(r, d)·W(o, d) + B(0, o). -/
def layer (X : Vec Ideal S8192x4096 .f32) (W : Vec Ideal S16384x4096 .f32) (B : Vec Ideal S1x16384 .f32) :
    Vec Ideal S8192x16384 .f32 :=
  fun i => (∑ d : Fin 4096, X (ix2 (i 0) d) * W (ix2 (i 1) d)) + B (ix2 0 (i 1))

/-- Which block each window is at, point by point: t = (i·16 + j)·4 + k. -/
theorem idx_facts : ∀ t : Fin cfg0.N,
    win0_0.index t (0 : Fin 2) = t.val / 64 ∧ win0_0.index t (1 : Fin 2) = t.val % 4
    ∧ win0_1.index t (0 : Fin 2) = t.val / 4 % 16 ∧ win0_1.index t (1 : Fin 2) = t.val % 4
    ∧ win0_2.index t (0 : Fin 2) = 0 ∧ win0_2.index t (1 : Fin 2) = t.val / 4 % 16
    ∧ win0_3.index t (0 : Fin 2) = t.val / 64 ∧ win0_3.index t (1 : Fin 2) = t.val / 4 % 16 :=
  (by decide +kernel : ∀ t : Fin grid0.N, _)

/-! ## An input block's entry is an entry of its array -/

theorem xblk_apply (c : Dev nD) (t : Fin cfg0.N) (p k : Fin 1024) (r : Fin 8192) (d : Fin 4096)
    (hr : r.val = win0_0.index t (0 : Fin 2) * 1024 + p.val) (hd : d.val = win0_0.index t (1 : Fin 2) * 1024 + k.val) :
    xblk m c t (ix2 p k) = xarr m c (ix2 r d) := by
  show iblk m c 0 t (ix2 p k) = _
  unfold iblk
  rw [View.read_apply]
  show V m c main_v0 _ = V m c main_v0 _
  congr 1
  funext a
  apply Fin.ext
  match a with
  | ⟨0, _⟩ => show win0_0.index t (0 : Fin 2) * 1024 + 1 * p.val = r.val; omega
  | ⟨1, _⟩ => show win0_0.index t (1 : Fin 2) * 1024 + 1 * k.val = d.val; omega

theorem wblk_apply (c : Dev nD) (t : Fin cfg0.N) (q k : Fin 1024) (o : Fin 16384) (d : Fin 4096)
    (ho : o.val = win0_1.index t (0 : Fin 2) * 1024 + q.val) (hd : d.val = win0_1.index t (1 : Fin 2) * 1024 + k.val) :
    wblk m c t (ix2 q k) = warr m c (ix2 o d) := by
  show iblk m c 1 t (ix2 q k) = _
  unfold iblk
  rw [View.read_apply]
  show V m c main_arg1 _ = V m c main_arg1 _
  congr 1
  funext a
  apply Fin.ext
  match a with
  | ⟨0, _⟩ => show win0_1.index t (0 : Fin 2) * 1024 + 1 * q.val = o.val; omega
  | ⟨1, _⟩ => show win0_1.index t (1 : Fin 2) * 1024 + 1 * k.val = d.val; omega

theorem bblk_apply (c : Dev nD) (t : Fin cfg0.N) (q : Fin 1024) (o : Fin 16384)
    (h0 : win0_2.index t (0 : Fin 2) = 0) (ho : o.val = win0_2.index t (1 : Fin 2) * 1024 + q.val) :
    bblk m c t (ix2 0 q) = barr m c (ix2 0 o) := by
  show iblk m c 2 t (ix2 0 q) = _
  unfold iblk
  rw [View.read_apply]
  show V m c main_v1 _ = V m c main_v1 _
  congr 1
  funext a
  apply Fin.ext
  match a with
  | ⟨0, _⟩ => show win0_2.index t (0 : Fin 2) * 1 + 1 * 0 = 0; omega
  | ⟨1, _⟩ => show win0_2.index t (1 : Fin 2) * 1024 + 1 * q.val = o.val; omega

/-! ## What a flushing point writes back -/

/-- Entry (p, q) of what run `s` stores: the chain of the four trips' sums, plus the bias entry. -/
theorem stored_apply (c : Dev nD) (s : Fin 128) (p q : Fin 1024) :
    k0_pay3 (tot3 m c s) (bblk m c (pt s 3)) (ix2 p q)
      = ((((0 + ∑ k : Fin 1024, xblk m c (pt s 0) (ix2 p k) * wblk m c (pt s 0) (ix2 q k))
          + ∑ k : Fin 1024, xblk m c (pt s 1) (ix2 p k) * wblk m c (pt s 1) (ix2 q k))
          + ∑ k : Fin 1024, xblk m c (pt s 2) (ix2 p k) * wblk m c (pt s 2) (ix2 q k))
          + ∑ k : Fin 1024, xblk m c (pt s 3) (ix2 p k) * wblk m c (pt s 3) (ix2 q k))
        + bblk m c (pt s 3) (ix2 0 q) := by
  rw [Payload.biased_apply]
  unfold tot3
  rw [Payload.trip_apply]
  unfold tot2
  rw [Payload.trip_apply]
  unfold tot1
  rw [Payload.trip_apply]
  unfold tot0
  rw [Payload.trip_apply, Payload.reset_apply]

/-- A trip's sum, over the arrays: block k of the contraction at row r of X and row o of W. -/
theorem trip_sum (c : Dev nD) (s : Fin 128) (k : Fin 4) (p q : Fin 1024) (r : Fin 8192) (o : Fin 16384)
    (hr : r.val = s.val / 16 * 1024 + p.val) (ho : o.val = s.val % 16 * 1024 + q.val) :
    ∑ kk : Fin 1024, xblk m c (pt s k) (ix2 p kk) * wblk m c (pt s k) (ix2 q kk)
      = ∑ kk : Fin 1024, xarr m c (ix2 r (pos k kk)) * warr m c (ix2 o (pos k kk)) := by
  obtain ⟨e0, e1, e2, e3, -, -, -, -⟩ := idx_facts (pt s k)
  have hs := s.isLt
  have hk := k.isLt
  refine Finset.sum_congr rfl fun kk _ => ?_
  rw [xblk_apply m c (pt s k) p kk r (pos k kk) (by rw [e0, hr, pt_val]; omega) (by rw [e1, pos_val, pt_val]; omega),
    wblk_apply m c (pt s k) q kk o (pos k kk) (by rw [e2, ho, pt_val]; omega) (by rw [e3, pos_val, pt_val]; omega)]

/-- WHAT A FLUSHING POINT WRITES BACK is its block of `layer` of the three operand arrays. -/
theorem flushed_eq (c : Dev nD) (t : Fin cfg0.N) (hf : (cfg0.win 3).flush t = true) :
    (dats m 0 c).flushed 3 t = ((cfg0.win 3).blk t).view.read (Elt Ideal) (layer (xarr m c) (warr m c) (barr m c)) := by
  have h3 : t.val % 4 = 3 := (flush0_3 t).mp hf
  have hN : t.val < 512 := lt_of_lt_of_eq t.isLt (show cfg0.N = 512 from N_0)
  obtain ⟨s, rfl⟩ : ∃ s : Fin 128, t = pt s 3 :=
    ⟨⟨t.val / 4, by omega⟩, Fin.ext (by show t.val = 4 * (t.val / 4) + 3; omega)⟩
  show (cfg0.win 3).cut (grid0.coords (pt s 3)) ((dats m 0 c).after 3 (pt s 3)) = _
  rw [after0_3, out_total]
  funext j
  obtain ⟨p, q, rfl⟩ : ∃ (p q : Fin 1024), j = ix2 p q := ⟨j 0, j 1, eq_ix2 j⟩
  have hs := s.isLt
  have hp := p.isLt
  have hq := q.isLt
  obtain ⟨-, -, -, -, e4, e5, e6, e7⟩ := idx_facts (pt s 3)
  let r : Fin 8192 := ⟨s.val / 16 * 1024 + p.val, by omega⟩
  let o : Fin 16384 := ⟨s.val % 16 * 1024 + q.val, by omega⟩
  have hemb : ((cfg0.win 3).blk (pt s 3)).view.emb (ix2 p q) = ix2 r o := by
    funext a
    apply Fin.ext
    match a with
    | ⟨0, _⟩ => show win0_3.index (pt s 3) (0 : Fin 2) * 1024 + 1 * p.val = s.val / 16 * 1024 + p.val; rw [e6, pt_val]; omega
    | ⟨1, _⟩ => show win0_3.index (pt s 3) (1 : Fin 2) * 1024 + 1 * q.val = s.val % 16 * 1024 + q.val; rw [e7, pt_val]; omega
  rw [View.read_apply, hemb]
  show k0_pay3 (tot3 m c s) (bblk m c (pt s 3)) (ix2 p q)
    = (∑ d : Fin 4096, xarr m c (ix2 r d) * warr m c (ix2 o d)) + barr m c (ix2 0 o)
  rw [stored_apply, trip_sum m c s 0 p q r o rfl rfl, trip_sum m c s 1 p q r o rfl rfl, trip_sum m c s 2 p q r o rfl rfl,
    trip_sum m c s 3 p q r o rfl rfl,
    bblk_apply m c (pt s 3) q o e4 (by rw [e5, pt_val]; show s.val % 16 * 1024 + q.val = _; omega),
    ← sum_blocks (fun d => xarr m c (ix2 r d) * warr m c (ix2 o d))]

/-! ## The written blocks tile the result -/

theorem mem_blk (t : Fin cfg0.N) (i : S8192x16384.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2).slice (win0_3.rect t)).set ↔ _
  rw [View.set_slice_whole, Rect.mem_set_unit]
  exact Iff.rfl

/-- Entry (r, o) lies in the block the last point of run (r / 1024)·16 + o / 1024 writes. -/
theorem cover (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  have hs : (i 0).val / 1024 * 16 + (i 1).val / 1024 < 128 := by omega
  obtain ⟨-, -, -, -, -, -, e6, e7⟩ := idx_facts (pt ⟨(i 0).val / 1024 * 16 + (i 1).val / 1024, hs⟩ 3)
  refine ⟨pt ⟨(i 0).val / 1024 * 16 + (i 1).val / 1024, hs⟩ 3, (flush0_3 _).mpr (by rw [pt_val]; show (4 * ((i 0).val / 1024 * 16 + (i 1).val / 1024) + 3) % 4 = 3; omega), ?_⟩
  rw [mem_blk]
  intro a
  match a with
  | ⟨0, _⟩ =>
    show win0_3.index _ (0 : Fin 2) * 1024 ≤ (i 0).val ∧ (i 0).val < win0_3.index _ (0 : Fin 2) * 1024 + 1024
    rw [e6, pt_val]
    show (4 * ((i 0).val / 1024 * 16 + (i 1).val / 1024) + 3) / 64 * 1024 ≤ (i 0).val ∧ (i 0).val < (4 * ((i 0).val / 1024 * 16 + (i 1).val / 1024) + 3) / 64 * 1024 + 1024
    omega
  | ⟨1, _⟩ =>
    show win0_3.index _ (1 : Fin 2) * 1024 ≤ (i 1).val ∧ (i 1).val < win0_3.index _ (1 : Fin 2) * 1024 + 1024
    rw [e7, pt_val]
    show (4 * ((i 0).val / 1024 * 16 + (i 1).val / 1024) + 3) / 4 % 16 * 1024 ≤ (i 1).val ∧ (i 1).val < (4 * ((i 0).val / 1024 * 16 + (i 1).val / 1024) + 3) / 4 % 16 * 1024 + 1024
    omega

/-- THE RESULT ARRAY of the pallas_call after the run. -/
theorem final (c : Dev nD) : (dats m 0 c).arrAt 3 cfg0.N = layer (xarr m c) (warr m c) (barr m c) :=
  (dats m 0 c).arrAt_eq_of_cover 3 (layer (xarr m c) (warr m c) (barr m c)) (flushed_eq m c) (cover)

end Cert.KernelIdeal.Blocks

end
-- ==== Proof.Spec.lean ====
/-
  The dense layer both programs compute, as one function of the three argument arrays:

      out[b, s, o] = ∑_{d < 4096} x[b, s, d] · W[o, d]  +  bias[o]

  over the extended reals — the contraction runs over the LAST axis of both x and W (x · Wᵀ), and
  the bias depends on the output feature alone.
-/
import Idealize.ShloMosaic.Lib.ValueIdx

noncomputable section

open scoped BigOperators
open Idealize.ShloMosaic Idealize.ShloMosaic.ValueIdx

namespace Cert.Spec

/-- The layer's output at (b, s, o). -/
def dense (x : (⟨3, ![4, 2048, 4096]⟩ : Shape).Idx → EReal) (w : (⟨2, ![16384, 4096]⟩ : Shape).Idx → EReal)
    (bias : (⟨1, ![16384]⟩ : Shape).Idx → EReal) : (⟨3, ![4, 2048, 16384]⟩ : Shape).Idx → EReal :=
  fun i => (∑ d : Fin 4096, x (ix3 (i 0) (i 1) d) * w (ix2 (i 2) d)) + bias (ix1 (i 2))

end Cert.Spec

end
-- ==== Proof.KernelRun.lean ====
/-
  The kernel program's run, with its result named.

  Around the pallas_call the program only re-lays arrays: x (4 × 2048 × 4096) is flattened to
  X (8192 × 4096) with row r = 2048·b + s, the bias (16384) becomes the row B (1 × 16384), and the
  pallas_call's result (8192 × 16384) is unflattened to out (4 × 2048 × 16384). Row-major positions
  are kept by each of these, so
      out[b, s, o] = layer X W B (2048·b + s, o) = ∑_d x[b, s, d]·W[o, d] + bias[o],
  the dense layer of the three arguments.
-/
import proofs.«120054_j11081015624230_1_alg».proof.Proof.Blocks
import proofs.«120054_j11081015624230_1_alg».proof.Proof.Spec
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.Blocks

variable (m : (ℓ : Loc nD τ sig) → Buf (Elt Ideal) ℓ) (ρ : Dev nD → PrngReg)

/-! ## The re-laid operands the region finds -/

theorem xarr_eq (c : Dev nD) :
    xarr m c = shapeCast S8192x4096 (m ((c : Thread nD τ).loc main_arg0)) shapeCasts_S4x2048x4096_S8192x4096 := by
  show StableHlo.after hostOps0 (fun b => m (c, b)) (Proc.devRef .tc main_v0) = _
  after_results
  rfl

theorem barr_eq (c : Dev nD) :
    barr m c = shapeCast S1x16384 (m ((c : Thread nD τ).loc main_arg2)) shapeCasts_S16384_S1x16384 := by
  show StableHlo.after hostOps0 (fun b => m (c, b)) (Proc.devRef .tc main_v1) = _
  after_results
  rfl

theorem warr_eq (c : Dev nD) : warr m c = m ((c : Thread nD τ).loc main_arg1) := V_main_arg1 m c

/-! ## The result after the last reshape -/

/-- The program's result buffer: the pallas_call's result array, unflattened. -/
theorem tail_eq (c : Dev nD) :
    Pipeline.afterTail₀ cfgs (dats m) 0 (V0 m) [hostOps1] c main_v3
      = shapeCast S4x2048x16384 (layer (xarr m c) (warr m c) (barr m c)) shapeCasts_S8192x16384_S4x2048x16384 := by
  have e : Pipeline.withArrays spec0 c (V0 m c) (fun w => (dats m 0 c).arrAt w cfg0.N) (Proc.devRef .tc main_v2)
      = layer (xarr m c) (warr m c) (barr m c) :=
    (Pipeline.withArrays_arr spec0 launch0.win.arr_inj c (V0 m c) (fun w => (dats m 0 c).arrAt w cfg0.N) 3).trans (final m c)
  unfold Pipeline.afterTail₀
  show StableHlo.after hostOps1 _ (Proc.devRef .tc main_v3) = _
  after_results
  exact congrArg (fun a : Vec Ideal S8192x16384 .f32 => shapeCast S4x2048x16384 a shapeCasts_S8192x16384_S4x2048x16384) e

/-- Unflattened and read at (b, s, o), the layer on the flattened operands is the dense layer of the arguments. -/
theorem relaid_eq_dense (x : Vec Ideal S4x2048x4096 .f32) (w : Vec Ideal S16384x4096 .f32) (b : Vec Ideal S16384 .f32) :
    shapeCast S4x2048x16384
        (layer (shapeCast S8192x4096 x shapeCasts_S4x2048x4096_S8192x4096) w (shapeCast S1x16384 b shapeCasts_S16384_S1x16384))
        shapeCasts_S8192x16384_S4x2048x16384
      = Cert.Spec.dense x w b := by
  funext i
  obtain ⟨b0, s0, o0, rfl⟩ : ∃ (b0 : Fin 4) (s0 : Fin 2048) (o0 : Fin 16384), i = ix3 b0 s0 o0 := ⟨i 0, i 1, i 2, eq_ix3 i⟩
  have hb := b0.isLt
  have hs := s0.isLt
  let r : Fin 8192 := ⟨b0.val * 2048 + s0.val, by omega⟩
  rw [shapeCast_apply _ shapeCasts_S8192x16384_S4x2048x16384 (ix3 b0 s0 o0) (ix2 r o0)
    (by rw [Shape.rowMajor_val_two, Shape.rowMajor_val_three]; rfl)]
  show (∑ d : Fin 4096, shapeCast S8192x4096 x shapeCasts_S4x2048x4096_S8192x4096 (ix2 r d) * w (ix2 o0 d))
      + shapeCast S1x16384 b shapeCasts_S16384_S1x16384 (ix2 0 o0)
    = (∑ d : Fin 4096, x (ix3 b0 s0 d) * w (ix2 o0 d)) + b (ix1 o0)
  congr 1
  · refine Finset.sum_congr rfl fun d _ => ?_
    rw [shapeCast_apply x shapeCasts_S4x2048x4096_S8192x4096 (ix2 r d) (ix3 b0 s0 d)
      (by rw [Shape.rowMajor_val_two, Shape.rowMajor_val_three]; rfl)]
  · exact shapeCast_apply b shapeCasts_S16384_S1x16384 (ix2 0 o0) (ix1 o0)
      (by rw [Shape.rowMajor_val_two, Shape.rowMajor_val_one]; show o0.val = 0 * 16384 + o0.val; omega)

/-! ## The run -/

/-- Every weakly fair execution of the kernel program terminates with its result at the dense layer of its
    three arguments, and the arguments as they were. -/
theorem run : θ_run defs (onTc (τ := τ) (main (F := Ideal))) ⟨m, fun _ => 0, ρ⟩ fun r => ∀ c : Dev nD,
      r.2.mem ((c.tc : Thread nD τ).loc main_v3)
        = Cert.Spec.dense (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans
          ((tail_eq m c).trans (by rw [xarr_eq, barr_eq, warr_eq]; exact relaid_eq_dense _ _ _)),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.KernelRun

end
-- ==== Proof.RefValue.lean ====
/-
  The reference is the dense layer, index by index: its contraction reads x at (b, s, d) and W at
  (o, d) for d over the 4096 input features, and its two broadcasts of the bias read bias at o.
-/
import proofs.«120054_j11081015624230_1_alg».proof.Defs
import proofs.«120054_j11081015624230_1_alg».proof.Proof.Gen.ReferenceIdeal.Run
import proofs.«120054_j11081015624230_1_alg».proof.Proof.Gen.ReferenceIdeal.Read
import proofs.«120054_j11081015624230_1_alg».proof.Proof.Spec

noncomputable section

open Idealize.ShloMosaic Idealize.ShloMosaic.TcCoe Idealize.ShloMosaic.ValueIdx

namespace Cert.ReferenceIdeal.RefValue

open Cert.ReferenceIdeal Cert.ReferenceIdeal.Read

/-- The reference's last stage is `Spec.dense` of its three arguments. -/
theorem stage_eq_dense (x : (⟨S4x2048x4096, .f32⟩ : BufTy).Contents (Elt Ideal))
    (w : (⟨S16384x4096, .f32⟩ : BufTy).Contents (Elt Ideal)) (b : (⟨S16384, .f32⟩ : BufTy).Contents (Elt Ideal)) :
    val_main_v3 (F := Ideal) x w b = Cert.Spec.dense x w b := by
  funext i
  have el : ∀ k : Fin 4096, lidx_main_v0 i k = ix3 (i 0) (i 1) k := fun k => funext fun a => by
    match a with
    | ⟨0, _⟩ => rfl
    | ⟨1, _⟩ => rfl
    | ⟨2, _⟩ => rfl
  have er : ∀ k : Fin 4096, ridx_main_v0 i k = ix2 (i 2) k := fun k => funext fun a => by
    match a with
    | ⟨0, _⟩ => rfl
    | ⟨1, _⟩ => rfl
  have eb : idx_main_v1 (idx_main_v2 i) = ix1 (i 2) := funext fun a => by
    match a with
    | ⟨0, _⟩ => rfl
  rw [val_main_v3_apply, val_main_v0_apply, val_main_v2_apply, val_main_v1_apply, eb]
  simp only [el, er]
  rfl

end Cert.ReferenceIdeal.RefValue

end
-- ==== Proof.lean ====
/-
  A dense layer, out = x · Wᵀ + bias, computed by a tiled matrix product against its one-line definition.

  The kernel flattens x (4 × 2048 × 4096) to 8192 rows and walks an 8 × 16 × 4 grid over 1024-wide
  tiles: for each of the 128 output tiles it runs four trips over the contraction axis, keeping a running
  total in a scratch tile that the first trip resets, each trip adding the product of a tile of x with the
  transpose of a tile of W (both factors rounded to bf16 first), and after the fourth trip it stores the
  total plus the bias row; the result is unflattened to 4 × 2048 × 16384. The reference contracts the last
  axes of x and W in one product and adds the broadcast bias.

  Over the extended reals the roundings are the identity, so an entry of the kernel's result is
      (((0 + B₀) + B₁) + B₂) + B₃ + bias[o],   Bₖ = ∑_{1024k ≤ d < 1024(k+1)} x[b, s, d] · W[o, d],
  and the reference's is ∑_{d < 4096} x[b, s, d] · W[o, d] + bias[o]. The two agree because a sum over the
  axis is the zero-started chain of its four consecutive blocks — associativity and commutativity of
  addition and 0 + a = a, which hold for every extended real; the finiteness of the inputs is not used.
  Both results are stated as ONE function of the three arguments (`Spec.dense`).

  The kernel programs' frames are their generated frame runs; the reference's is its generated run with
  the result dropped; the idealization rewrote nothing, so that conjunct is `True`.
-/
import proofs.«120054_j11081015624230_1_alg».proof.Defs
import proofs.«120054_j11081015624230_1_alg».proof.Proof.Gen.Kernel
import proofs.«120054_j11081015624230_1_alg».proof.Proof.Gen.Kernel.Skeleton
import proofs.«120054_j11081015624230_1_alg».proof.Proof.Gen.Kernel.Launch
import proofs.«120054_j11081015624230_1_alg».proof.Proof.Gen.Kernel.Points
import proofs.«120054_j11081015624230_1_alg».proof.Proof.Gen.Kernel.Frame
import proofs.«120054_j11081015624230_1_alg».proof.Proof.Gen.KernelIdeal
import proofs.«120054_j11081015624230_1_alg».proof.Proof.Gen.KernelIdeal.Skeleton
import proofs.«120054_j11081015624230_1_alg».proof.Proof.Gen.KernelIdeal.Launch
import proofs.«120054_j11081015624230_1_alg».proof.Proof.Gen.KernelIdeal.Points
import proofs.«120054_j11081015624230_1_alg».proof.Proof.Gen.KernelIdeal.Frame
import proofs.«120054_j11081015624230_1_alg».proof.Proof.Gen.ReferenceIdeal
import proofs.«120054_j11081015624230_1_alg».proof.Proof.Gen.ReferenceIdeal.Run
import proofs.«120054_j11081015624230_1_alg».proof.Proof.Gen.ReferenceIdeal.Read
import proofs.«120054_j11081015624230_1_alg».proof.Proof.Gen.Pre_finite_inputs
import proofs.«120054_j11081015624230_1_alg».proof.Proof.KernelRun
import proofs.«120054_j11081015624230_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at the dense layer of arguments that agree. -/
theorem algebraic : Cert.algebraic_KernelIdeal_ReferenceIdeal := by
  intro m ρ m' ρ' _ hagree
  refine ⟨fun c => Cert.Spec.dense (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.stage_eq_dense,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
